-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S100000x128 .f32) (main_arg1 : IVec S2x1600000 32) (main_arg2 : FVec F S256x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S100000x128 : Shape := ⟨2, ![100000, 128]⟩
abbrev S2x1600000 : Shape := ⟨2, ![2, 1600000]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S128x128 : Shape := ⟨2, ![128, 128]⟩
abbrev S5000x128 : Shape := ⟨2, ![5000, 128]⟩

abbrev nBuf : Space → Nat
  | .hbm => 66
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S128x128, .f32⟩
  | .hbm, ⟨64, _⟩ => ⟨S128x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x256 : Shape := ⟨2, ![100000, 256]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x256, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Linear.lean ====
/-
  The dense stage of the layer, as one function of whole arrays.

  The layer ends with a linear map of the row `[x_r | agg_r]` (node `r`'s own 128 features followed by its 128
  aggregated ones) by a 256 × 128 weight matrix `w`. Entry `(r, c)` of the result is

      ∑_{k < 256} [x | agg](r, k) · w(k, c)
        = ∑_{k < 128} x(r, k) · w(k, c)  +  ∑_{k < 128} agg(r, k) · w(128 + k, c),

  the sum over the 256 rows of `w` split at row 128. The split only regroups the terms of one finite sum, so it holds in
  any commutative additive monoid, the extended reals included: no term has to be finite.
-/
import Idealize.ShloMosaic.PureOps.Ideal.Laws
import Idealize.ShloMosaic.Lib.ValueIdx

noncomputable section

open scoped BigOperators

namespace Cert.Linear

open Idealize.ShloMosaic Idealize.ShloMosaic.ValueIdx

/-- A node-feature array: 100000 nodes, 128 features each. -/
abbrev Nodes : Shape := ⟨2, ![100000, 128]⟩
/-- The concatenated rows `[x | agg]`: 256 features. -/
abbrev Wide : Shape := ⟨2, ![100000, 256]⟩
/-- The weight matrix: 256 rows (the first 128 meet `x`, the last 128 meet `agg`), 128 columns. -/
abbrev Weights : Shape := ⟨2, ![256, 128]⟩

/-- Row `k` of the upper half of the weights. -/
abbrev upper (k : Fin 128) : Fin 256 := ⟨k.val, Nat.lt_trans k.isLt (by decide)⟩
/-- Row `k` of the lower half of the weights: row `128 + k`. -/
abbrev lower (k : Fin 128) : Fin 256 := ⟨128 + k.val, by have := k.isLt; omega⟩

/-- Entry `(r, c)` of the layer's result: row `r` of `x` against the upper half of column `c` of the weights, plus row
    `r` of `agg` against the lower half. -/
def entry (x agg : FVec Ideal Nodes .f32) (w : FVec Ideal Weights .f32) (r : Fin 100000) (c : Fin 128) : EReal :=
  (∑ k : Fin 128, x (ix2 r k) * w (ix2 (upper k) c)) + ∑ k : Fin 128, agg (ix2 r k) * w (ix2 (lower k) c)

/-- The layer's result: `x · W_upper + agg · W_lower`, entry by entry. -/
def linear (x agg : FVec Ideal Nodes .f32) (w : FVec Ideal Weights .f32) : FVec Ideal Nodes .f32 :=
  fun i => entry x agg w (i 0) (i 1)

theorem linear_apply (x agg : FVec Ideal Nodes .f32) (w : FVec Ideal Weights .f32) (r : Fin 100000) (c : Fin 128) :
    linear x agg w (ix2 r c) = entry x agg w r c := rfl

/-- Half of the weight matrix: 128 rows, 128 columns. -/
abbrev Half : Shape := ⟨2, ![128, 128]⟩

/-- Entry `(r, c)` of the sum of two products, one with each half of the weights given as an array of its own. -/
def halvesEntry (x agg : FVec Ideal Nodes .f32) (w1 w2 : FVec Ideal Half .f32) (r : Fin 100000) (c : Fin 128) : EReal :=
  (∑ k : Fin 128, x (ix2 r k) * w1 (ix2 k c)) + ∑ k : Fin 128, agg (ix2 r k) * w2 (ix2 k c)

/-- `x · w1 + agg · w2`, entry by entry. -/
def halves (x agg : FVec Ideal Nodes .f32) (w1 w2 : FVec Ideal Half .f32) : FVec Ideal Nodes .f32 :=
  fun i => halvesEntry x agg w1 w2 (i 0) (i 1)

theorem halves_apply (x agg : FVec Ideal Nodes .f32) (w1 w2 : FVec Ideal Half .f32) (r : Fin 100000) (c : Fin 128) :
    halves x agg w1 w2 (ix2 r c) = halvesEntry x agg w1 w2 r c := rfl

/-- With `w1` the upper half of `w` and `w2` its lower half, the sum of the two products is `linear`. -/
theorem halves_eq_linear (x agg : FVec Ideal Nodes .f32) (w : FVec Ideal Weights .f32) (w1 w2 : FVec Ideal Half .f32)
    (h1 : ∀ (k c : Fin 128), w1 (ix2 k c) = w (ix2 (upper k) c))
    (h2 : ∀ (k c : Fin 128), w2 (ix2 k c) = w (ix2 (lower k) c)) :
    halves x agg w1 w2 = linear x agg w := by
  funext i
  obtain ⟨r, c, rfl⟩ : ∃ (r : Fin 100000) (c : Fin 128), i = ix2 r c := ⟨i 0, i 1, eq_ix2 i⟩
  rw [halves_apply, linear_apply]
  unfold halvesEntry entry
  simp only [h1, h2]

/-- A sum over 256 positions is the sum over the first 128 plus the sum over the last 128. -/
theorem sum_split {M : Type*} [AddCommMonoid M] (f : Fin 256 → M) :
    ∑ k : Fin 256, f k = (∑ k : Fin 128, f (upper k)) + ∑ k : Fin 128, f (lower k) := by
  have h := Fin.sum_univ_add (fun k : Fin (128 + 128) => f k)
  refine h.trans ?_
  congr 1 <;> exact Finset.sum_congr rfl fun k _ => congrArg f (Fin.ext rfl)

/-- The product of the concatenated row with the whole weight matrix is `entry`: for a wide array `h` whose left
    half is `x` and whose right half is `agg`, `∑_{k<256} h(r,k) · w(k,c)` splits at `k = 128`. -/
theorem wide_product (x agg : FVec Ideal Nodes .f32) (w : FVec Ideal Weights .f32) (h : FVec Ideal Wide .f32)
    (hl : ∀ (r : Fin 100000) (k : Fin 128), h (ix2 r (upper k)) = x (ix2 r k))
    (hr : ∀ (r : Fin 100000) (k : Fin 128), h (ix2 r (lower k)) = agg (ix2 r k))
    (r : Fin 100000) (c : Fin 128) :
    ∑ k : Fin 256, h (ix2 r k) * w (ix2 k c) = entry x agg w r c := by
  rw [sum_split]
  unfold entry
  simp only [hl, hr]

end Cert.Linear

end
-- ==== Proof.ReferenceDense.lean ====
/-
  The reference's result is the dense stage applied to its own aggregation.

  The reference joins the node features `x` and the aggregated features `agg` side by side into a 100000 × 256 array
  and multiplies by the whole weight matrix. Column `k < 128` of the joined array is column `k` of `x`, column `128 + k`
  is column `k` of `agg`; so the 256-term sum of entry `(r, c)` splits at 128 into the two 128-term sums of
  `Cert.Linear.entry`.
-/
import proofs.«178151_j13056700579874_1_alg».proof.Proof.ReferenceRead
import proofs.«178151_j13056700579874_1_alg».proof.Proof.Linear

noncomputable section

open scoped BigOperators

namespace Cert.ReferenceIdeal.Dense

open Cert.ReferenceIdeal Cert.ReferenceIdeal.ReadP Idealize.ShloMosaic Idealize.ShloMosaic.ValueIdx

/-- The left half of the joined array is `x`. -/
theorem joined_left (x : FVec Ideal S100000x128 .f32) (e : IVec S2x1600000 32) (r : Fin 100000) (k : Fin 128) :
    val_main_v43 (F := Ideal) x e (ix2 r (Cert.Linear.upper k)) = x (ix2 r k) := by
  unfold val_main_v43
  exact concatenate_pair_apply_left (t := S100000x256) (s₁ := S100000x128) (s₂ := S100000x128) 1 x _ _
    (ix2 r (Cert.Linear.upper k)) rfl (ix2 r k)
    (fun b => by match b with | ⟨0, _⟩ => rfl | ⟨1, _⟩ => rfl)

/-- The right half of the joined array is the aggregation. -/
theorem joined_right (x : FVec Ideal S100000x128 .f32) (e : IVec S2x1600000 32) (r : Fin 100000) (k : Fin 128) :
    val_main_v43 (F := Ideal) x e (ix2 r (Cert.Linear.lower k)) = val_main_v42 (F := Ideal) x e (ix2 r k) := by
  unfold val_main_v43
  exact concatenate_pair_apply_right (t := S100000x256) (s₁ := S100000x128) (s₂ := S100000x128) 1 x _ _
    (ix2 r (Cert.Linear.lower k)) rfl rfl (ix2 r k)
    (fun b hb => by match b with | ⟨0, _⟩ => rfl | ⟨1, _⟩ => exact absurd rfl hb)
    (Nat.add_comm _ _)

/-- The reference's result, as a function of its three arguments, is the dense stage of `x`, its aggregation and
    the weights. -/
theorem result_eq (x : FVec Ideal S100000x128 .f32) (e : IVec S2x1600000 32) (w : FVec Ideal S256x128 .f32) :
    val_main_v44 (F := Ideal) x e w = Cert.Linear.linear x (val_main_v42 (F := Ideal) x e) w := by
  funext i
  obtain ⟨r, c, rfl⟩ : ∃ (r : Fin 100000) (c : Fin 128), i = ix2 r c := ⟨i 0, i 1, eq_ix2 i⟩
  rw [val_main_v44_apply, Cert.Linear.linear_apply]
  have el : ∀ k : Fin 256, lidx_main_v44 (ix2 r c) k = ix2 r k := fun k =>
    funext fun a => Fin.ext (by match a with | ⟨0, _⟩ => rfl | ⟨1, _⟩ => rfl)
  have er : ∀ k : Fin 256, ridx_main_v44 (ix2 r c) k = ix2 k c := fun k =>
    funext fun a => Fin.ext (by match a with | ⟨0, _⟩ => rfl | ⟨1, _⟩ => rfl)
  simp only [el, er]
  exact Cert.Linear.wide_product x (val_main_v42 (F := Ideal) x e) w (val_main_v43 (F := Ideal) x e)
    (joined_left x e) (joined_right x e) r c

end Cert.ReferenceIdeal.Dense

end
-- ==== Proof.KernelEntry.lean ====
/-
  What the kernel's dense stage finds in its arrays.

  Before the dense stage starts, the host lines have computed the aggregation from the node features and the edge list
  — by the very operations the reference applies, in the same order, with the same constants — and cut the weight
  matrix into its upper half (rows 0 to 127) and its lower half (rows 128 to 255). So the stage's second operand holds
  the reference's own aggregation of the same arguments, and its third and fourth hold the two halves of the weights.
-/
import proofs.«178151_j13056700579874_1_alg».proof.Proof.Gen.KernelIdeal.Frame
import proofs.«178151_j13056700579874_1_alg».proof.Proof.ReferenceRead
import Idealize.ShloMosaic.Lib.StableHlo.Run
import Idealize.ShloMosaic.Lib.ValueLayout
import proofs.«178151_j13056700579874_1_alg».proof.Proof.Linear

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxRecDepth 8192 in
set_option maxHeartbeats 4000000 in
/-- The aggregated features the stage reads are the reference's aggregation of the same node features and edges. -/
theorem agg_eq (c : Dev nD) :
    (V m c main_v42 : S100000x128.Idx → Elt F .f32)
      = Cert.ReferenceIdeal.ReadP.val_main_v42 (F := F) (m ((c : Thread nD τ).loc main_arg0)) (m ((c : Thread nD τ).loc main_arg1)) := by
  dsimp only [V]
  simp only [hostOps0, hostOps0_1, hostOps0_2, hostOps0_3, hostOps0_4, List.flatten_cons, List.flatten_nil, List.append_nil,
    List.cons_append, List.nil_append]
  after_results_simp
  simp only [TRef.ofBuf, TRef.toBuf, cast_eq]
  rfl

/-- The third operand is the weights cut to rows 0 … 127. -/
theorem upper_eq (c : Dev nD) :
    (V m c main_v43 : S128x128.Idx → Elt F .f32)
      = extractStridedSlice S128x128 ![0, 0] (m ((c : Thread nD τ).loc main_arg2)) slices_S256x128_S128x128_0_0 := by
  dsimp only [V]
  simp only [hostOps0, hostOps0_1, hostOps0_2, hostOps0_3, hostOps0_4, List.flatten_cons, List.flatten_nil, List.append_nil,
    List.cons_append, List.nil_append]
  after_results_simp

/-- The fourth operand is the weights cut to rows 128 … 255. -/
theorem lower_eq (c : Dev nD) :
    (V m c main_v44 : S128x128.Idx → Elt F .f32)
      = extractStridedSlice S128x128 ![128, 0] (m ((c : Thread nD τ).loc main_arg2)) slices_S256x128_S128x128_128_0 := by
  dsimp only [V]
  simp only [hostOps0, hostOps0_1, hostOps0_2, hostOps0_3, hostOps0_4, List.flatten_cons, List.flatten_nil, List.append_nil,
    List.cons_append, List.nil_append]
  after_results_simp

open Idealize.ShloMosaic.ValueIdx in
/-- Entry `(k, q)` of the third operand is entry `(k, q)` of the weights. -/
theorem upper_apply (c : Dev nD) (k q : Fin 128) :
    (V m c main_v43 : S128x128.Idx → Elt F .f32) (ix2 k q)
      = (m ((c : Thread nD τ).loc main_arg2) : S256x128.Idx → Elt F .f32) (ix2 (Cert.Linear.upper k) q) := by
  rw [upper_eq]
  exact slice2_axis0_apply 0 _ slices_S256x128_S128x128_0_0 k q (Cert.Linear.upper k) (Nat.zero_add _).symm

open Idealize.ShloMosaic.ValueIdx in
/-- Entry `(k, q)` of the fourth operand is entry `(128 + k, q)` of the weights. -/
theorem lower_apply (c : Dev nD) (k q : Fin 128) :
    (V m c main_v44 : S128x128.Idx → Elt F .f32) (ix2 k q)
      = (m ((c : Thread nD τ).loc main_arg2) : S256x128.Idx → Elt F .f32) (ix2 (Cert.Linear.lower k) q) := by
  rw [lower_eq]
  exact slice2_axis0_apply 128 _ slices_S256x128_S128x128_128_0 k q (Cert.Linear.lower k) rfl

end Cert.KernelIdeal.Entry

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibMatrixProduct.lean ====
/-
  A plain matrix product read by coordinates.

  For dimension numbers of the usual rows × columns kind — an `[m, k]` operand against a `[k, n]` one, the left
  operand's axis 1 contracted with the right operand's axis 0, no batch axis — entry `(p, q)` of the product into a
  zero accumulator is `∑_{i < k} L(p, i) · R(i, q)` over the extended reals: the contraction's positions are the
  numbers below `k`, the left operand is read along row `p` and the right one down column `q`.
-/
import proofs.«178151_j13056700579874_1_alg».proof.Proof.LibContraction

noncomputable section

open scoped BigOperators

namespace Cert.Lib.MatrixProduct

open Idealize.ShloMosaic Idealize.ShloMosaic.ValueIdx Cert.Lib.Contraction

variable {m k n : Nat} (d : DotDims ⟨2, ![m, k]⟩ ⟨2, ![k, n]⟩ ⟨2, ![m, n]⟩)

/-- The dimension numbers of a plain product: rows of the left operand against columns of the right one. -/
structure Plain : Prop where
  lhsContracting : d.lhsContracting = [1]
  rhsContracting : d.rhsContracting = [0]
  lhsFree : d.lhsNonContracting = [0]
  rhsFree : d.rhsNonContracting = [1]
  lhsBatch : d.lhsBatch = []
  rhsBatch : d.rhsBatch = []

variable {d}

/-- At contraction position `i`, the left operand of entry `(p, q)` is read at `(p, i)`. -/
theorem lhs_index (hd : Plain d) (p : Fin m) (q : Fin n) (i : Fin k) :
    d.lhsIdx (ix2 p q) ((contrFin d hd.lhsContracting k rfl).symm i) = ix2 p i :=
  funext fun a => Fin.ext (by
    match a with
    | ⟨0, _⟩ => exact lhs_free d hd.lhsBatch hd.lhsFree (ix2 p q) _ Nat.zero_lt_two
    | ⟨1, _⟩ => exact lhs_contracted d hd.lhsContracting k rfl (ix2 p q) i)

/-- At contraction position `i`, the right operand of entry `(p, q)` is read at `(i, q)`. -/
theorem rhs_index (hd : Plain d) (p : Fin m) (q : Fin n) (i : Fin k) :
    d.rhsIdx (ix2 p q) ((contrFin d hd.lhsContracting k rfl).symm i) = ix2 i q :=
  funext fun a => Fin.ext (by
    match a with
    | ⟨0, _⟩ => exact rhs_contracted d hd.lhsContracting hd.rhsContracting k rfl (ix2 p q) i
    | ⟨1, _⟩ => exact rhs_free d hd.lhsBatch hd.rhsBatch hd.lhsFree hd.rhsFree (ix2 p q) _ Nat.one_lt_two)

/-- Entry `(p, q)` of a plain product into the zero accumulator: row `p` of the left operand against column `q` of the
    right one. -/
theorem matmul_zero_apply {φ₁ φ₂ : FTy} (hd : Plain d) (prec : Option ContractPrecision)
    (L : FVec Ideal ⟨2, ![m, k]⟩ φ₁) (R : FVec Ideal ⟨2, ![k, n]⟩ φ₂) (p : Fin m) (q : Fin n) :
    FloatOps.matmul d prec L R (constant ⟨2, ![m, n]⟩ .f32 0x00000000#32) (ix2 p q)
      = ∑ i : Fin k, L (ix2 p i) * R (ix2 i q) := by
  rw [Ideal.matmul_constant_zero_apply, sum_contr d hd.lhsContracting k rfl]
  refine Finset.sum_congr rfl fun i _ => ?_
  rw [lhs_index hd p q i, rhs_index hd p q i]

/-- The same entry of the host's `dot_general`. -/
theorem dotGeneral_apply {φ₁ φ₂ : FTy} (hd : Plain d) (prec : Option ContractPrecision) (sched : HostSchedule)
    (L : FVec Ideal ⟨2, ![m, k]⟩ φ₁) (R : FVec Ideal ⟨2, ![k, n]⟩ φ₂) (p : Fin m) (q : Fin n) :
    FloatOps.dotGeneral d prec sched L R (ix2 p q) = ∑ i : Fin k, L (ix2 p i) * R (ix2 i q) := by
  rw [Ideal.dotGeneral_apply, sum_contr d hd.lhsContracting k rfl]
  refine Finset.sum_congr rfl fun i _ => ?_
  rw [lhs_index hd p q i, rhs_index hd p q i]

end Cert.Lib.MatrixProduct

end
-- ==== Proof.KernelBlock.lean ====
/-
  What the kernel body stores, entry by entry.

  At one grid point the body holds a 5000-row block `xb` of the node features, the matching block `ab` of the
  aggregated features, and the two 128 × 128 halves `w1`, `w2` of the weights. It rounds all four to bf16 (the identity
  on extended reals), forms the two products into zero accumulators and adds them: entry `(p, q)` of what it stores is

      ∑_{k < 128} xb(p, k) · w1(k, q)  +  ∑_{k < 128} ab(p, k) · w2(k, q).
-/
import proofs.«178151_j13056700579874_1_alg».proof.Proof.Gen.KernelIdeal.Skeleton
import proofs.«178151_j13056700579874_1_alg».proof.Proof.LibMatrixProduct
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- The body's two products are plain rows × columns products. -/
theorem plain : Cert.Lib.MatrixProduct.Plain dot_S5000x128_S128x128_S5000x128_1_0_0_1_n_n :=
  ⟨rfl, rfl, rfl, rfl, rfl, rfl⟩

/-- The stored value at `(p, q)`: row `p` of the feature block against column `q` of the upper weights, plus row `p` of
    the aggregated block against column `q` of the lower weights. -/
theorem stored_apply (xb ab : FVec Ideal S5000x128 .f32) (w1 w2 : FVec Ideal S128x128 .f32) (p : Fin 5000) (q : Fin 128) :
    k0_pay1 (F := Ideal) xb ab w1 w2 (ix2 p q)
      = (∑ k : Fin 128, xb (ix2 p k) * w1 (ix2 k q)) + ∑ k : Fin 128, ab (ix2 p k) * w2 (ix2 k q) := by
  unfold k0_pay1
  refine (congrArg₂ (· + ·)
    (Cert.Lib.MatrixProduct.matmul_zero_apply plain none
      (truncf .bf16 xb bitsLt_bf16_f32)
      (truncf .bf16 (shapeCast S128x128 w1 shapeCasts_S128x128_S128x128) bitsLt_bf16_f32) p q)
    (Cert.Lib.MatrixProduct.matmul_zero_apply plain none
      (truncf .bf16 (shapeCast S5000x128 ab shapeCasts_S5000x128_S5000x128) bitsLt_bf16_f32)
      (truncf .bf16 (shapeCast S128x128 w2 shapeCasts_S128x128_S128x128) bitsLt_bf16_f32) p q)).trans ?_
  simp only [truncf_apply, shapeCast_self]

end Cert.KernelIdeal.Block

end
-- ==== Proof.KernelValue.lean ====
/-
  The kernel's result array, as one function of the arrays its dense stage finds.

  The stage walks 20 grid points. At point `t` it reads rows `5000 t … 5000 t + 4999` of the node features and of the
  aggregated features, and both 128 × 128 halves of the weights whole, and writes back rows `5000 t … 5000 t + 4999` of
  the result. Entry `(p, q)` of what it writes is row `p` of the feature block against column `q` of the upper weights
  plus row `p` of the aggregated block against column `q` of the lower weights; row `p` of a block is row `5000 t + p` of
  its array. The 20 row blocks tile the 100000 rows (row `r` lies in block `r / 5000`), so the whole array ends holding
  `x · w1 + agg · w2`.
-/
import proofs.«178151_j13056700579874_1_alg».proof.Proof.Gen.KernelIdeal.Value
import proofs.«178151_j13056700579874_1_alg».proof.Proof.KernelBlock
import proofs.«178151_j13056700579874_1_alg».proof.Proof.Linear

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The node features as the stage finds them. -/
abbrev feat (c : Dev nD) : FVec Ideal S100000x128 .f32 := V m c (Pipeline.arrRef spec0 (0 : Fin cfg0.W))
/-- The aggregated features as the stage finds them. -/
abbrev aggr (c : Dev nD) : FVec Ideal S100000x128 .f32 := V m c (Pipeline.arrRef spec0 (1 : Fin cfg0.W))
/-- The upper half of the weights as the stage finds it. -/
abbrev wUp (c : Dev nD) : FVec Ideal S128x128 .f32 := V m c (Pipeline.arrRef spec0 (2 : Fin cfg0.W))
/-- The lower half of the weights as the stage finds it. -/
abbrev wLow (c : Dev nD) : FVec Ideal S128x128 .f32 := V m c (Pipeline.arrRef spec0 (3 : Fin cfg0.W))

/-- What the result array ends holding. -/
abbrev result (c : Dev nD) : Buf (Elt Ideal) ((c : Thread nD τ).loc main_v45) :=
  Cert.Linear.halves (feat m c) (aggr m c) (wUp m c) (wLow m c)

/-- Where each window's block sits at point `t`: the two row-blocked inputs and the output at block row `t`, block
    column 0; the two weight halves at block (0, 0). Decided over the 20 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- There are 20 grid points. -/
theorem point_lt (t : Fin cfg0.N) : t.val < 20 := lt_of_lt_of_eq t.isLt N_0

/-- Row `p` of the feature block at point `t` is row `5000 t + p` of the features. -/
theorem feat_block (c : Dev nD) (t : Fin cfg0.N) (p : Fin 5000) (k : Fin 128) (h : 5000 * t.val + p.val < 100000) :
    (iblk m c 0 t : Vec Ideal S5000x128 .f32) (ix2 p k) = feat m c (ix2 ⟨5000 * t.val + p.val, h⟩ k) := by
  obtain ⟨h0, h1, -⟩ := block_index t
  have e : ((cfg0.win 0).blk t).view.emb (ix2 p k) = (ix2 ⟨5000 * t.val + p.val, h⟩ k : S100000x128.Idx) := by
    funext a; apply Fin.ext
    match a with
    | ⟨0, _⟩ => show win0_0.index t (0 : Fin 2) * 5000 + 1 * p.val = 5000 * t.val + p.val; rw [h0]; omega
    | ⟨1, _⟩ => show win0_0.index t (1 : Fin 2) * 128 + 1 * k.val = k.val; rw [h1]; omega
  unfold iblk
  show ((cfg0.win 0).blk t).view.read (Elt Ideal) (V m c (Pipeline.arrRef spec0 (0 : Fin cfg0.W))) (ix2 p k)
    = V m c (Pipeline.arrRef spec0 (0 : Fin cfg0.W)) (ix2 ⟨5000 * t.val + p.val, h⟩ k)
  generalize V m c (Pipeline.arrRef spec0 (0 : Fin cfg0.W)) = A
  rw [View.read_apply, e]
  exact cast_eq _ _

/-- Row `p` of the aggregated block at point `t` is row `5000 t + p` of the aggregated features. -/
theorem aggr_block (c : Dev nD) (t : Fin cfg0.N) (p : Fin 5000) (k : Fin 128) (h : 5000 * t.val + p.val < 100000) :
    (iblk m c 1 t : Vec Ideal S5000x128 .f32) (ix2 p k) = aggr m c (ix2 ⟨5000 * t.val + p.val, h⟩ k) := by
  obtain ⟨-, -, h0, h1, -⟩ := block_index t
  have e : ((cfg0.win 1).blk t).view.emb (ix2 p k) = (ix2 ⟨5000 * t.val + p.val, h⟩ k : S100000x128.Idx) := by
    funext a; apply Fin.ext
    match a with
    | ⟨0, _⟩ => show win0_1.index t (0 : Fin 2) * 5000 + 1 * p.val = 5000 * t.val + p.val; rw [h0]; omega
    | ⟨1, _⟩ => show win0_1.index t (1 : Fin 2) * 128 + 1 * k.val = k.val; rw [h1]; omega
  unfold iblk
  show ((cfg0.win 1).blk t).view.read (Elt Ideal) (V m c (Pipeline.arrRef spec0 (1 : Fin cfg0.W))) (ix2 p k)
    = V m c (Pipeline.arrRef spec0 (1 : Fin cfg0.W)) (ix2 ⟨5000 * t.val + p.val, h⟩ k)
  generalize V m c (Pipeline.arrRef spec0 (1 : Fin cfg0.W)) = A
  rw [View.read_apply, e]
  exact cast_eq _ _

/-- The upper weights' block is the whole half, at every point. -/
theorem wUp_block (c : Dev nD) (t : Fin cfg0.N) (k q : Fin 128) :
    (iblk m c 2 t : Vec Ideal S128x128 .f32) (ix2 k q) = wUp m c (ix2 k q) := by
  obtain ⟨-, -, -, -, h0, h1, -⟩ := block_index t
  have e : ((cfg0.win 2).blk t).view.emb (ix2 k q) = (ix2 k q : S128x128.Idx) := by
    funext a; apply Fin.ext
    match a with
    | ⟨0, _⟩ => show win0_2.index t (0 : Fin 2) * 128 + 1 * k.val = k.val; rw [h0]; omega
    | ⟨1, _⟩ => show win0_2.index t (1 : Fin 2) * 128 + 1 * q.val = q.val; rw [h1]; omega
  unfold iblk
  show ((cfg0.win 2).blk t).view.read (Elt Ideal) (V m c (Pipeline.arrRef spec0 (2 : Fin cfg0.W))) (ix2 k q)
    = V m c (Pipeline.arrRef spec0 (2 : Fin cfg0.W)) (ix2 k q)
  generalize V m c (Pipeline.arrRef spec0 (2 : Fin cfg0.W)) = A
  rw [View.read_apply, e]
  exact cast_eq _ _

/-- The lower weights' block is the whole half, at every point. -/
theorem wLow_block (c : Dev nD) (t : Fin cfg0.N) (k q : Fin 128) :
    (iblk m c 3 t : Vec Ideal S128x128 .f32) (ix2 k q) = wLow m c (ix2 k q) := by
  obtain ⟨-, -, -, -, -, -, h0, h1, -⟩ := block_index t
  have e : ((cfg0.win 3).blk t).view.emb (ix2 k q) = (ix2 k q : S128x128.Idx) := by
    funext a; apply Fin.ext
    match a with
    | ⟨0, _⟩ => show win0_3.index t (0 : Fin 2) * 128 + 1 * k.val = k.val; rw [h0]; omega
    | ⟨1, _⟩ => show win0_3.index t (1 : Fin 2) * 128 + 1 * q.val = q.val; rw [h1]; omega
  unfold iblk
  show ((cfg0.win 3).blk t).view.read (Elt Ideal) (V m c (Pipeline.arrRef spec0 (3 : Fin cfg0.W))) (ix2 k q)
    = V m c (Pipeline.arrRef spec0 (3 : Fin cfg0.W)) (ix2 k q)
  generalize V m c (Pipeline.arrRef spec0 (3 : Fin cfg0.W)) = A
  rw [View.read_apply, e]
  exact cast_eq _ _

/-- What point `t` writes back is block `t` of `result`. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero origin]
  simp only [View.ld_unit_zero (S := S5000x128) origin, View.ld_unit_zero (S := S128x128) origin]
  funext j
  obtain ⟨p, q, rfl⟩ : ∃ (p : Fin 5000) (q : Fin 128), j = ix2 p q := ⟨j 0, j 1, eq_ix2 j⟩
  obtain ⟨-, -, -, -, -, -, -, -, h0, h1⟩ := block_index t
  have hp : p.val < 5000 := p.isLt
  have ht : t.val < 20 := point_lt t
  have hrow : 5000 * t.val + p.val < 100000 := by omega
  have e : ((cfg0.win 4).blk t).view.emb (ix2 p q) = (ix2 ⟨5000 * t.val + p.val, hrow⟩ q : S100000x128.Idx) := by
    funext a; apply Fin.ext
    match a with
    | ⟨0, _⟩ => show win0_4.index t (0 : Fin 2) * 5000 + 1 * p.val = 5000 * t.val + p.val; rw [h0]; omega
    | ⟨1, _⟩ => show win0_4.index t (1 : Fin 2) * 128 + 1 * q.val = q.val; rw [h1]; omega
  show k0_pay1 (F := Ideal) (iblk m c 0 t) (iblk m c 1 t) (iblk m c 2 t) (iblk m c 3 t) (ix2 p q)
    = result m c (((cfg0.win 4).blk t).view.emb (ix2 p q))
  rw [e]
  refine ((Cert.KernelIdeal.Block.stored_apply _ _ _ _ p q).trans ?_).trans
    (Cert.Linear.halves_apply (feat m c) (aggr m c) (wUp m c) (wLow m c) ⟨5000 * t.val + p.val, hrow⟩ q).symm
  unfold Cert.Linear.halvesEntry
  simp only [feat_block m c t p _ hrow, aggr_block m c t p _ hrow, wUp_block m c t, wLow_block m c t]

/-- An index of the result array lies in point `t`'s block iff each coordinate lies in the block's range. -/
theorem mem_block (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v45).slice (win0_4.rect t)).set ↔ _
  rw [View.set_slice_whole, Rect.mem_set_unit]
  exact Iff.rfl

/-- Every index of the result array lies in some point's block: row `r` in block `r / 5000`. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_4 _, ?_⟩
  rw [mem_block]
  obtain ⟨-, -, -, -, -, -, -, -, h0, h1⟩ := block_index ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [h0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [h1]; omega

/-- The result array after the run. -/
theorem final (c : Dev nD) : (dats m 0 c).arrAt 4 cfg0.N = result m c :=
  (dats m 0 c).arrAt_eq_of_cover 4 (result m c) (fun t _ => flushed_eq m c t) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Dense

end
-- ==== Proof.lean ====
/-
  A graph-convolution layer: degree-normalised neighbour aggregation, then a linear map of `[x | agg]`.

  Both programs first compute, on the host and by the same operations in the same order, the aggregated features
  `agg` from the node features `x` and the edge list: the in-degree of every node, its inverse square root where the
  degree is positive, the per-edge weight, the weighted gather of source rows and their scatter-sum at the targets.
  The kernel then cuts the 256 × 128 weight matrix `w` into its upper and lower halves and, 5000 rows at a time,
  stores `x · w_upper + agg · w_lower` (its roundings to bf16 are the identity on extended reals); the reference joins
  `x` and `agg` side by side and multiplies by `w` whole. Entry `(r, c)` of either result is

      ∑_{k < 128} x(r, k) · w(k, c) + ∑_{k < 128} agg(r, k) · w(128 + k, c):

  the reference's 256-term sum splits at `k = 128`, which regroups a finite sum and asks nothing of the terms, so the
  precondition is never opened. The aggregation is carried as one function of `x` and the edges, the same on both
  sides, and never read.
-/
import proofs.«178151_j13056700579874_1_alg».proof.Defs
import proofs.«178151_j13056700579874_1_alg».proof.Proof.Gen.Kernel
import proofs.«178151_j13056700579874_1_alg».proof.Proof.Gen.Kernel.Skeleton
import proofs.«178151_j13056700579874_1_alg».proof.Proof.Gen.Kernel.Launch
import proofs.«178151_j13056700579874_1_alg».proof.Proof.Gen.Kernel.Points
import proofs.«178151_j13056700579874_1_alg».proof.Proof.Gen.Kernel.Frame
import proofs.«178151_j13056700579874_1_alg».proof.Proof.Gen.KernelIdeal
import proofs.«178151_j13056700579874_1_alg».proof.Proof.Gen.KernelIdeal.Skeleton
import proofs.«178151_j13056700579874_1_alg».proof.Proof.Gen.KernelIdeal.Launch
import proofs.«178151_j13056700579874_1_alg».proof.Proof.Gen.KernelIdeal.Points
import proofs.«178151_j13056700579874_1_alg».proof.Proof.Gen.KernelIdeal.Frame
import proofs.«178151_j13056700579874_1_alg».proof.Proof.Gen.ReferenceIdeal
import proofs.«178151_j13056700579874_1_alg».proof.Proof.Gen.Pre_finite_inputs
import proofs.«178151_j13056700579874_1_alg».proof.Proof.Gen.KernelIdeal.Value
import proofs.«178151_j13056700579874_1_alg».proof.Proof.ReferenceRead
import proofs.«178151_j13056700579874_1_alg».proof.Proof.ReferenceDense
import proofs.«178151_j13056700579874_1_alg».proof.Proof.KernelEntry
import proofs.«178151_j13056700579874_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's result array is the dense stage of its arguments and of the reference's aggregation of them: the
    stage finds the node features as launched, the aggregation the host lines computed, and the two halves of the
    weights. -/
theorem kernel_result (m : (ℓ : Loc Cert.KernelIdeal.nD Cert.KernelIdeal.τ Cert.KernelIdeal.sig) → Buf (Elt Ideal) ℓ)
    (c : Dev Cert.KernelIdeal.nD) :
    Cert.KernelIdeal.Dense.result m c
      = Cert.Linear.linear (m ((c.tc : Thread Cert.KernelIdeal.nD Cert.KernelIdeal.τ).loc Cert.KernelIdeal.main_arg0))
          (Cert.ReferenceIdeal.ReadP.val_main_v42 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg2)) := by
  show Cert.Linear.halves (Cert.KernelIdeal.Dense.feat m c) (Cert.KernelIdeal.Dense.aggr m c)
    (Cert.KernelIdeal.Dense.wUp m c) (Cert.KernelIdeal.Dense.wLow m c) = _
  have hx : Cert.KernelIdeal.Dense.feat m c
      = m ((c.tc : Thread Cert.KernelIdeal.nD Cert.KernelIdeal.τ).loc Cert.KernelIdeal.main_arg0) :=
    Cert.KernelIdeal.Gen.V_main_arg0 m c
  have ha : Cert.KernelIdeal.Dense.aggr m c
      = Cert.ReferenceIdeal.ReadP.val_main_v42 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
    Cert.KernelIdeal.Entry.agg_eq m c
  rw [hx, ha]
  exact Cert.Linear.halves_eq_linear _ _ _ _ _ (Cert.KernelIdeal.Entry.upper_apply m c)
    (Cert.KernelIdeal.Entry.lower_apply m c)

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the dense stage of the arguments and of their aggregation: the kernel by its 20 row blocks,
    the reference by the split of its 256-term sums. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v44_eq, Cert.ReferenceIdeal.Dense.result_eq, (hagree c).1, (hagree c).2.1,
    (hagree c).2.2]
  exact (kernel_result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
